-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S20x256 : Shape := ⟨2, ![20, 256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S16x1024x256 .f32) (main_arg1 : FVec F S16x1024x256 .f32) (main_arg2 : FVec F S20x256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x256 .f32 := Host.absf main_arg1
  let main_cst_0 : FVec F S_ .f32 := constant S_ .f32 0x7F800000#32
  let main_v5 : FVec F S16x1024x256 .f32 := broadcastInDim S16x1024x256 ![] bcast_S_S16x1024x256 main_cst_0
  let main_v6 : IVec S16x1024x256 1 := cmpf .olt main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S20x256 .f32 := Host.absf main_arg2
  let main_cst_2 : FVec F S_ .f32 := constant S_ .f32 0x7F800000#32
  let main_v10 : FVec F S20x256 .f32 := broadcastInDim S20x256 ![] bcast_S_S20x256 main_cst_2
  let main_v11 : IVec S20x256 1 := cmpf .olt main_v9 main_v10
  let main_c_3 : IVec S_ 1 := constantI S_ 1 1#1
  let main_v12 : IVec S_ 1 := (fun x v => Host.reduce IntOp.andi x v reducesTo_S20x256_S_d0_1 h_S_) main_v11 main_c_3
  let main_v13 : IVec S_ 1 := andi main_v8 main_v12
  main_v13
-- ==== Kernel.lean ====
abbrev S16x1024x256 : Shape := ⟨3, ![16, 1024, 256]⟩
abbrev S20x256 : Shape := ⟨2, ![20, 256]⟩
abbrev S16x1024x20 : Shape := ⟨3, ![16, 1024, 20]⟩
abbrev S1x256x256 : Shape := ⟨3, ![1, 256, 256]⟩
abbrev S1x1024x256 : Shape := ⟨3, ![1, 1024, 256]⟩
abbrev S1x256x20 : Shape := ⟨3, ![1, 256, 20]⟩
abbrev S256x256 : Shape := ⟨2, ![256, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S256x1024 : Shape := ⟨2, ![256, 1024]⟩
abbrev S256x20 : Shape := ⟨2, ![256, 20]⟩

abbrev nBuf : Space → Nat
  | .hbm => 4
  | .vmem => 7
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S20x256, .f32⟩
  | .hbm, ⟨3, _⟩ => ⟨S16x1024x20, .f32⟩
  | .local _ .vmem, ⟨0, _⟩ => ⟨S1x256x256, .f32⟩
  | .local _ .vmem, ⟨1, _⟩ => ⟨S1x256x256, .f32⟩
  | .local _ .vmem, ⟨2, _⟩ => ⟨S1x1024x256, .f32⟩
  | .local _ .vmem, ⟨3, _⟩ => ⟨S1x1024x256, .f32⟩
  | .local _ .vmem, ⟨4, _⟩ => ⟨S20x256, .f32⟩
  | .local _ .vmem, ⟨5, _⟩ => ⟨S1x256x20, .f32⟩
  | .local _ .vmem, ⟨6, _⟩ => ⟨S1x256x20, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S20x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S256x256_S256 : S256x256.Reduces [1] S256
  shapeCasts_S256_S256x1 : S256.ShapeCasts S256x1
  reduces_S1024x256_S1024 : S1024x256.Reduces [1] S1024
  shapeCasts_S1024_S1024x1 : S1024.ShapeCasts S1024x1
  broadcasts_S256x1_S256x256 : S256x1.Broadcasts S256x256
  bitsLt_bf16_f32 : FTy.bits .bf16 < FTy.bits .f32
  broadcasts_S1024x1_S1024x256 : S1024x1.Broadcasts S1024x256
  transposes_S1024x256_p1_0_S256x1024 : S1024x256.Transposes [1, 0] S256x1024
  reduces_S256x1024_S256 : S256x1024.Reduces [1] S256
  inb_S20x256_S20x256_0_0 : ∀ a, (![0, 0] : Fin 2 → Nat) a + S20x256.size a ≤ S20x256.size a
  h_S20x256 : 0 < S20x256.numel
  transposes_S20x256_p1_0_S256x20 : S20x256.Transposes [1, 0] S256x20
  inb_S1x256x20_S1x256x20_0_0_0 : ∀ a, (![0, 0, 0] : Fin 3 → Nat) a + S1x256x20.size a ≤ S1x256x20.size a
  h_S1x256x20 : 0 < S1x256x20.numel
  shapeCasts_S1x256x20_S256x20 : S1x256x20.ShapeCasts S256x20
  shapeCasts_S256x20_S1x256x20 : S256x20.ShapeCasts S1x256x20
  dot_S256x256_S256x1024_S256x1024_1_0_0_1_n_n_wf : DotDims.WF S256x256 S256x1024 S256x1024 [1] [0] [0] [1] [] []
  dot_S256x1024_S1024x256_S256x256_1_0_0_1_n_n_wf : DotDims.WF S256x1024 S1024x256 S256x256 [1] [0] [0] [1] [] []
  dot_S256x256_S256x20_S256x20_1_0_0_1_n_n_wf : DotDims.WF S256x256 S256x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x1024x256.size a
  hwx0_0 : ∀ i : grid0.Coords, EltTy.bits .f32 = 32 ∨ (Rect.block (s := S16x1024x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x1024x256.size a
  hwx0_1 : ∀ i : grid0.Coords, EltTy.bits .f32 = 32 ∨ (Rect.block (s := S16x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x256.size a ≤ S20x256.size a
  hwx0_2 : ∀ i : grid0.Coords, EltTy.bits .f32 = 32 ∨ (Rect.block (s := S20x256) S20x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x20.size a ≤ S16x1024x20.size a
  hwx0_3 : ∀ i : grid0.Coords, EltTy.bits .f32 = 32 ∨ (Rect.block (s := S16x1024x20) S1x256x20.size (cc0_transform_3 i) (hinb0_3 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x20_S256x20_1_0_0_1_n_n : DotDims S256x256 S256x20 S256x20 where
  lhsContracting := [1]
  rhsContracting := [0]
  lhsNonContracting := [0]
  rhsNonContracting := [1]
  lhsBatch := []
  rhsBatch := []
  wf := dot_S256x256_S256x20_S256x20_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S20x256 : Shape := ⟨2, ![20, 256]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩
abbrev S16x1024x20 : Shape := ⟨3, ![16, 1024, 20]⟩

abbrev nBuf : Space → Nat
  | .hbm => 50
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x256, .f32⟩
  | .hbm, ⟨2, _⟩ => ⟨S20x256, .f32⟩
  | .hbm, ⟨3, _⟩ => ⟨S16x1024x256, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024x256, .f32⟩
  | .hbm, ⟨11, _⟩ => ⟨S_, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x1024x1024, .f32⟩
  | .hbm, ⟨18, _⟩ => ⟨S16x1024x1, .f32⟩
  | .hbm, ⟨19, _⟩ => ⟨S16x1024x1024, .f32⟩
  | .hbm, ⟨20, _⟩ => ⟨S16x1024x1024, .f32⟩
  | .hbm, ⟨21, _⟩ => ⟨S16x1x1024, .f32⟩
  | .hbm, ⟨22, _⟩ => ⟨S16x1024x1024, .f32⟩
  | .hbm, ⟨23, _⟩ => ⟨S16x1024x1024, .f32⟩
  | .hbm, ⟨24, _⟩ => ⟨S16x1024x256, .f32⟩
  | .hbm, ⟨25, _⟩ => ⟨S_, .f32⟩
  | .hbm, ⟨26, _⟩ => ⟨S16x1024, .f32⟩
  | .hbm, ⟨27, _⟩ => ⟨S16x1024x1, .f32⟩
  | .hbm, ⟨28, _⟩ => ⟨S_, .f32⟩
  | .hbm, ⟨29, _⟩ => ⟨S16x1024x1, .f32⟩
  | .hbm, ⟨30, _⟩ => ⟨S16x1024x1, .f32⟩
  | .hbm, ⟨31, _⟩ => ⟨S16x1024x256, .f32⟩
  | .hbm, ⟨32, _⟩ => ⟨S16x1024x256, .f32⟩
  | .hbm, ⟨33, _⟩ => ⟨S20x256, .f32⟩
  | .hbm, ⟨34, _⟩ => ⟨S16x1024x256, .f32⟩
  | .hbm, ⟨35, _⟩ => ⟨S16x1024x20, .f32⟩
  | .hbm, ⟨36, _⟩ => ⟨S16x1024x256, .f32⟩
  | .hbm, ⟨37, _⟩ => ⟨S16x1024x20, .f32⟩
  | .hbm, ⟨38, _⟩ => ⟨S_, .f32⟩
  | .hbm, ⟨39, _⟩ => ⟨S16x1024x20, .f32⟩
  | .hbm, ⟨40, _⟩ => ⟨S16x1024x20, .f32⟩
  | .hbm, ⟨41, _⟩ => ⟨S16x1024x20, .f32⟩
  | .hbm, ⟨42, _⟩ => ⟨S16x1024x256, .f32⟩
  | .hbm, ⟨43, _⟩ => ⟨S16x1024x20, .f32⟩
  | .hbm, ⟨44, _⟩ => ⟨S_, .f32⟩
  | .hbm, ⟨45, _⟩ => ⟨S16x1024x20, .f32⟩
  | .hbm, ⟨46, _⟩ => ⟨S16x1024x20, .f32⟩
  | .hbm, ⟨47, _⟩ => ⟨S16x1024x20, .f32⟩
  | .hbm, ⟨48, _⟩ => ⟨S16x1024x20, .f32⟩
  | .hbm, ⟨49, _⟩ => ⟨S16x1024x20, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  reducesTo_S16x1024x256_S16x1024_d2 : S16x1024x256.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  bcast_S_S16x1024x1 : S_.BroadcastsInDim S16x1024x1 (![] : Fin 0 → Fin S16x1024x1.rank)
  bcast_S16x1024x1_S16x1024x256_0_1_2 : S16x1024x1.BroadcastsInDim S16x1024x256 (![0, 1, 2] : Fin 3 → Fin S16x1024x256.rank)
  bcast_S_S16x1024x20 : S_.BroadcastsInDim S16x1024x20 (![] : Fin 0 → Fin S16x1024x20.rank)
  dot_S16x1024x256_S16x1024x256_S16x1024x1024_2_2_1_1_0_0_wf : DotDims.WF S16x1024x256 S16x1024x256 S16x1024x1024 [2] [2] [1] [1] [0] [0]
  dot_S16x1024x1024_S16x1024x256_S16x1024x256_2_1_1_2_0_0_wf : DotDims.WF S16x1024x1024 S16x1024x256 S16x1024x256 [2] [1] [1] [2] [0] [0]
  dot_S16x1024x256_S20x256_S16x1024x20_2_1_01_0_n_n_wf : DotDims.WF S16x1024x256 S20x256 S16x1024x20 [2] [1] [0, 1] [0] [] []

variable [Facts₀]

def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf
def dot_S16x1024x256_S20x256_S16x1024x20_2_1_01_0_n_n : DotDims S16x1024x256 S20x256 S16x1024x20 where
  lhsContracting := [2]
  rhsContracting := [1]
  lhsNonContracting := [0, 1]
  rhsNonContracting := [0]
  lhsBatch := []
  rhsBatch := []
  wf := dot_S16x1024x256_S20x256_S16x1024x20_2_1_01_0_n_n_wf

class Facts : Prop extends Facts₀ where

variable [Facts]
-- ==== Proof.RowSpec.lean ====
/-
  One output row of the perspective match, as a function of one row of the first sentence, all rows of the second
  sentence of the same batch entry, and one perspective row.

  For a row u (length n) and rows w_j (j < L) write |v| for the clamped length of a row, sqrt (max (∑_d v_d², ε)),
  with ε the single-precision constant nearest to 1e-7. The cosine of u against w_j can be arranged in two ways:

      split:  ∑_d (u_d / |u|) · (w_{j,d} / |w_j|)        (normalise each row, then contract)
      joint:  ((∑_d u_d · w_{j,d}) / |u|) / |w_j|        (contract, then divide by the two lengths)

  From the cosines c_j the mean attentive vector is a_d = (∑_j c_j · w_{j,d}) / ((∑_j c_j) + ε), and the score of u
  against a under a perspective row κ is

      (∑_d (u_d · a_d) · κ_d²) / sqrt (max (∑_d u_d² · κ_d², ε)) / sqrt (max (∑_d a_d² · κ_d², ε)).

  Everything after the cosines is the same composition of the same operations in both arrangements, so the two whole
  results agree as soon as the cosines do. The cosines agree when all entries of u and of the w_j are real numbers:
  then |u| and |w_j| are real and at least sqrt ε > 0, division by them is multiplication by a real reciprocal, and
  the reciprocals leave the finite sum by distributivity. (With an infinite entry the lengths may be infinite and
  the two arrangements can differ, which is why reality of the entries is assumed.)
-/
import Idealize.ShloMosaic.PureOps.Ideal.Laws
import Idealize.ShloMosaic.Lib.ValueIdx

noncomputable section

open scoped BigOperators

namespace Cert.RowSpec

open Idealize.ShloMosaic Idealize.ShloMosaic.ValueIdx

/-! ## The clamp constant -/

/-- ε: the single-precision constant nearest to 1e-7, as an extended real. -/
def floor : EReal := Ideal.ofBits .f32 0x33D6BF95#32

/-- Its value: sign +, exponent field 103, fraction field 0x56BF95, that is (2²³ + 5685141) · 2^(103 − 127 − 23). -/
def floorR : ℝ := 14073749 * (2 : ℝ) ^ (-47 : ℤ)

theorem floorR_pos : 0 < floorR := by unfold floorR; positivity

theorem floor_eq : floor = (floorR : EReal) := by
  unfold floor floorR
  simp [Ideal.ofBits, Ideal.ieee, -EReal.coe_mul]

/-! ## The row functions -/

/-- The clamped length of a row: sqrt (max (∑ v_d², ε)). -/
def len {n : Nat} (v : Fin n → EReal) : EReal := Ideal.sqrt (max (∑ d, v d * v d) floor)

/-- The cosine of u against row j, each row normalised before the contraction. -/
def cosSplit {n L : Nat} (u : Fin n → EReal) (w : Fin L → Fin n → EReal) (j : Fin L) : EReal :=
  ∑ d, Ideal.div (u d) (len u) * Ideal.div (w j d) (len (w j))

/-- The cosine of u against row j, the contraction divided by the two lengths afterwards. -/
def cosJoint {n L : Nat} (u : Fin n → EReal) (w : Fin L → Fin n → EReal) (j : Fin L) : EReal :=
  Ideal.div (Ideal.div (∑ d, u d * w j d) (len u)) (len (w j))

/-- The mean attentive vector from the cosines: the cosine-weighted sum of the rows over the cosines' sum plus ε. -/
def attend {n L : Nat} (cs : Fin L → EReal) (w : Fin L → Fin n → EReal) (d : Fin n) : EReal :=
  Ideal.div (∑ j, cs j * w j d) ((∑ j, cs j) + floor)

/-- The score of u against a under the perspective row κ. -/
def score {n : Nat} (u a κ : Fin n → EReal) : EReal :=
  Ideal.div
    (Ideal.div (∑ d, (u d * a d) * (κ d * κ d)) (Ideal.sqrt (max (∑ d, (u d * u d) * (κ d * κ d)) floor)))
    (Ideal.sqrt (max (∑ d, (a d * a d) * (κ d * κ d)) floor))

/-! ## The two arrangements of the cosine agree on real rows -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The clamped length of a real row is a nonzero real: the sum of squares is real, its maximum with ε is at least
    ε > 0, and the square root of a positive real is a positive real. -/
theorem len_real {n : Nat} (a : Fin n → ℝ) : ∃ p : ℝ, p ≠ 0 ∧ len (fun d => (a d : EReal)) = (p : EReal) := by
  have hpos : 0 < max (∑ d, a d * a d) floorR := lt_max_of_lt_right floorR_pos
  refine ⟨Real.sqrt (max (∑ d, a d * a d) floorR), (Real.sqrt_pos.mpr hpos).ne', ?_⟩
  unfold len
  have hs : (∑ d, (a d : EReal) * (a d : EReal)) = ((∑ d, a d * a d : ℝ) : EReal) := by
    rw [coe_sum]; exact Finset.sum_congr rfl fun d _ => (EReal.coe_mul _ _).symm
  have hm : max ((∑ d, a d * a d : ℝ) : EReal) (floorR : EReal) = ((max (∑ d, a d * a d) floorR : ℝ) : EReal) :=
    (EReal.coe_strictMono.monotone.map_max).symm
  rw [hs, floor_eq, hm, Ideal.sqrt_coe, if_neg (not_lt.mpr hpos.le)]

/-- On real rows the two arrangements of the cosine are one number: dividing by the real lengths p, q ≠ 0 is
    multiplying by 1/p, 1/q, and ∑ (a_d / p) · (b_d / q) = ((∑ a_d · b_d) / p) / q in the reals. -/
theorem cosSplit_eq_cosJoint_real {n L : Nat} (a : Fin n → ℝ) (b : Fin L → Fin n → ℝ) (j : Fin L) :
    cosSplit (fun d => (a d : EReal)) (fun j d => (b j d : EReal)) j
      = cosJoint (fun d => (a d : EReal)) (fun j d => (b j d : EReal)) j := by
  obtain ⟨p, hp, ep⟩ := len_real a
  obtain ⟨q, hq, eq⟩ := len_real (b j)
  unfold cosSplit cosJoint
  rw [ep, eq]
  simp only [Ideal.div_coe hp, Ideal.div_coe hq]
  have hl : (∑ d, (a d : EReal) * ((1 / p : ℝ) : EReal) * ((b j d : EReal) * ((1 / q : ℝ) : EReal)))
      = ((∑ d, a d * (1 / p) * (b j d * (1 / q)) : ℝ) : EReal) := by
    rw [coe_sum]; exact Finset.sum_congr rfl fun d _ => by rw [EReal.coe_mul, EReal.coe_mul, EReal.coe_mul]
  have hr : (∑ d, (a d : EReal) * (b j d : EReal)) = ((∑ d, a d * b j d : ℝ) : EReal) := by
    rw [coe_sum]; exact Finset.sum_congr rfl fun d _ => (EReal.coe_mul _ _).symm
  rw [hl, hr, ← EReal.coe_mul, ← EReal.coe_mul, Finset.sum_mul, Finset.sum_mul]
  exact congrArg _ (Finset.sum_congr rfl fun d _ => by ring)

/-- The same for rows of extended reals none of whose entries is infinite. -/
theorem cosSplit_eq_cosJoint {n L : Nat} (u : Fin n → EReal) (w : Fin L → Fin n → EReal)
    (hu : ∀ d, u d ≠ ⊤ ∧ u d ≠ ⊥) (hw : ∀ j d, w j d ≠ ⊤ ∧ w j d ≠ ⊥) : cosSplit u w = cosJoint u w := by
  obtain ⟨a, rfl⟩ : ∃ a : Fin n → ℝ, u = fun d => (a d : EReal) :=
    ⟨fun d => (u d).toReal, funext fun d => (EReal.coe_toReal (hu d).1 (hu d).2).symm⟩
  obtain ⟨b, rfl⟩ : ∃ b : Fin L → Fin n → ℝ, w = fun j d => (b j d : EReal) :=
    ⟨fun j d => (w j d).toReal, funext fun j => funext fun d => (EReal.coe_toReal (hw j d).1 (hw j d).2).symm⟩
  exact funext (cosSplit_eq_cosJoint_real a b)

/-! ## The whole arrays -/

/-- A sentence array: 16 batch entries of 1024 rows of length 256. -/
abbrev Sent : Type := (⟨3, ![16, 1024, 256]⟩ : Shape).Idx → EReal
/-- The perspective array: 20 rows of length 256. -/
abbrev Persp : Type := (⟨2, ![20, 256]⟩ : Shape).Idx → EReal
/-- The result array: for each batch entry and each row of the first sentence, 20 scores. -/
abbrev Out : Type := (⟨3, ![16, 1024, 20]⟩ : Shape).Idx → EReal

/-- Row l of batch entry b. -/
def rowOf (x : Sent) (b : Fin 16) (l : Fin 1024) : Fin 256 → EReal := fun d => x (ix3 b l d)
/-- All rows of batch entry b. -/
def rowsOf (x : Sent) (b : Fin 16) : Fin 1024 → Fin 256 → EReal := fun j d => x (ix3 b j d)
/-- Perspective row p. -/
def perspOf (k : Persp) (p : Fin 20) : Fin 256 → EReal := fun d => k (ix2 p d)

/-- One result entry from a choice of cosine arrangement. -/
def entry (cosine : (Fin 256 → EReal) → (Fin 1024 → Fin 256 → EReal) → Fin 1024 → EReal)
    (u : Fin 256 → EReal) (w : Fin 1024 → Fin 256 → EReal) (κ : Fin 256 → EReal) : EReal :=
  score u (attend (cosine u w) w) κ

/-- The result with the rows normalised before the contraction. -/
def wholeSplit (x0 x1 : Sent) (k : Persp) : Out := fun i =>
  entry cosSplit (rowOf x0 (i 0) (i 1)) (rowsOf x1 (i 0)) (perspOf k (i 2))

/-- The result with the contraction divided by the lengths afterwards. -/
def wholeJoint (x0 x1 : Sent) (k : Persp) : Out := fun i =>
  entry cosJoint (rowOf x0 (i 0) (i 1)) (rowsOf x1 (i 0)) (perspOf k (i 2))

/-- When no entry of either sentence array is infinite the two results are equal. -/
theorem wholeSplit_eq_wholeJoint (x0 x1 : Sent) (k : Persp)
    (h0 : ∀ i, x0 i ≠ ⊤ ∧ x0 i ≠ ⊥) (h1 : ∀ i, x1 i ≠ ⊤ ∧ x1 i ≠ ⊥) : wholeSplit x0 x1 k = wholeJoint x0 x1 k := by
  funext i
  have hc := cosSplit_eq_cosJoint (rowOf x0 (i 0) (i 1)) (rowsOf x1 (i 0)) (fun d => h0 _) (fun j d => h1 _)
  unfold wholeSplit wholeJoint entry
  exact congrArg (fun c => score (rowOf x0 (i 0) (i 1)) (attend c (rowsOf x1 (i 0))) (perspOf k (i 2))) hc

end Cert.RowSpec

end
-- ==== Proof.RefRows.lean ====
/-
  The reference's result, stage by stage, is the contract-then-normalise arrangement of the row specification.

  The reference works on the whole arrays. Read at one index, each of its stages depends on one row of the first
  sentence, the rows of the second sentence in the same batch entry, and one perspective row:

    * the two length arrays, at (b, l) and (b, j), are the clamped lengths of row l of the first and row j of the
      second sentence (a sum over the last axis, starting from zero, clamped below by ε, square-rooted);
    * the cosine array at (b, l, j) is the batched contraction over the last axis divided by the first length,
      broadcast along j, and then by the second, broadcast along l;
    * the mean attentive vector at (b, l, d) is the batched contraction of the cosines with the second sentence over
      j, divided by the cosines' sum over j plus ε;
    * the result at (b, l, p) divides the contraction over d of (first sentence · mean attentive vector) with the
      squared perspective row by the two clamped square roots.

  No law of the extended reals is used: each stage is the specification's expression with the index sets of the
  sums named differently.
-/
import proofs.«113823_j51187420234470_1_alg».proof.Proof.Gen.ReferenceIdeal.Read
import proofs.«113823_j51187420234470_1_alg».proof.Proof.RowSpec

noncomputable section

open scoped BigOperators

namespace Cert.RefRows

open Cert.ReferenceIdeal Cert.ReferenceIdeal.Read Idealize.ShloMosaic Idealize.ShloMosaic.ValueIdx Cert.RowSpec

variable (x0 x1 : Sent) (k : Persp)

/-! ## The indices the stages read, by coordinates -/

theorem idx_v1 (b : Fin 16) (l : Fin 1024) (q : Fin 256) : idx_main_v1 (ix2 b l) q = ix3 b l q :=
  funext fun a => Fin.ext (by match a with | ⟨0, _⟩ => rfl | ⟨1, _⟩ => rfl | ⟨2, _⟩ => rfl)
theorem idx_v6 (b : Fin 16) (l : Fin 1024) (q : Fin 256) : idx_main_v6 (ix2 b l) q = ix3 b l q :=
  funext fun a => Fin.ext (by match a with | ⟨0, _⟩ => rfl | ⟨1, _⟩ => rfl | ⟨2, _⟩ => rfl)
theorem lidx_v10 (b : Fin 16) (l j : Fin 1024) (q : Fin 256) : lidx_main_v10 (ix3 b l j) q = ix3 b l q :=
  funext fun a => Fin.ext (by match a with | ⟨0, _⟩ => rfl | ⟨1, _⟩ => rfl | ⟨2, _⟩ => rfl)
theorem ridx_v10 (b : Fin 16) (l j : Fin 1024) (q : Fin 256) : ridx_main_v10 (ix3 b l j) q = ix3 b j q :=
  funext fun a => Fin.ext (by match a with | ⟨0, _⟩ => rfl | ⟨1, _⟩ => rfl | ⟨2, _⟩ => rfl)
theorem idx_v11_v12 (b : Fin 16) (l j : Fin 1024) : idx_main_v11 (idx_main_v12 (ix3 b l j)) = ix2 b l :=
  funext fun a => Fin.ext (by match a with | ⟨0, _⟩ => rfl | ⟨1, _⟩ => rfl)
theorem idx_v14_v15 (b : Fin 16) (l j : Fin 1024) : idx_main_v14 (idx_main_v15 (ix3 b l j)) = ix2 b j :=
  funext fun a => Fin.ext (by match a with | ⟨0, _⟩ => rfl | ⟨1, _⟩ => rfl)
theorem lidx_v17 (b : Fin 16) (l : Fin 1024) (d : Fin 256) (j : Fin 1024) : lidx_main_v17 (ix3 b l d) j = ix3 b l j :=
  funext fun a => Fin.ext (by match a with | ⟨0, _⟩ => rfl | ⟨1, _⟩ => rfl | ⟨2, _⟩ => rfl)
theorem ridx_v17 (b : Fin 16) (l : Fin 1024) (d : Fin 256) (j : Fin 1024) : ridx_main_v17 (ix3 b l d) j = ix3 b j d :=
  funext fun a => Fin.ext (by match a with | ⟨0, _⟩ => rfl | ⟨1, _⟩ => rfl | ⟨2, _⟩ => rfl)
theorem idx_v18 (b : Fin 16) (l : Fin 1024) (j : Fin 1024) : idx_main_v18 (ix2 b l) j = ix3 b l j :=
  funext fun a => Fin.ext (by match a with | ⟨0, _⟩ => rfl | ⟨1, _⟩ => rfl | ⟨2, _⟩ => rfl)
theorem idx_v19_v22 (b : Fin 16) (l : Fin 1024) (d : Fin 256) : idx_main_v19 (idx_main_v22 (ix3 b l d)) = ix2 b l :=
  funext fun a => Fin.ext (by match a with | ⟨0, _⟩ => rfl | ⟨1, _⟩ => rfl)
theorem lidx_v26 (b : Fin 16) (l : Fin 1024) (p : Fin 20) (d : Fin 256) : lidx_main_v26 (ix3 b l p) d = ix3 b l d :=
  funext fun a => Fin.ext (by match a with | ⟨0, _⟩ => rfl | ⟨1, _⟩ => rfl | ⟨2, _⟩ => rfl)
theorem ridx_v26 (b : Fin 16) (l : Fin 1024) (p : Fin 20) (d : Fin 256) : ridx_main_v26 (ix3 b l p) d = ix2 p d :=
  funext fun a => Fin.ext (by match a with | ⟨0, _⟩ => rfl | ⟨1, _⟩ => rfl)
theorem lidx_v28 (b : Fin 16) (l : Fin 1024) (p : Fin 20) (d : Fin 256) : lidx_main_v28 (ix3 b l p) d = ix3 b l d :=
  funext fun a => Fin.ext (by match a with | ⟨0, _⟩ => rfl | ⟨1, _⟩ => rfl | ⟨2, _⟩ => rfl)
theorem ridx_v28 (b : Fin 16) (l : Fin 1024) (p : Fin 20) (d : Fin 256) : ridx_main_v28 (ix3 b l p) d = ix2 p d :=
  funext fun a => Fin.ext (by match a with | ⟨0, _⟩ => rfl | ⟨1, _⟩ => rfl)
theorem lidx_v33 (b : Fin 16) (l : Fin 1024) (p : Fin 20) (d : Fin 256) : lidx_main_v33 (ix3 b l p) d = ix3 b l d :=
  funext fun a => Fin.ext (by match a with | ⟨0, _⟩ => rfl | ⟨1, _⟩ => rfl | ⟨2, _⟩ => rfl)
theorem ridx_v33 (b : Fin 16) (l : Fin 1024) (p : Fin 20) (d : Fin 256) : ridx_main_v33 (ix3 b l p) d = ix2 p d :=
  funext fun a => Fin.ext (by match a with | ⟨0, _⟩ => rfl | ⟨1, _⟩ => rfl)

/-! ## The stages -/

/-- The first length array at (b, l) is the clamped length of row l of the first sentence in batch entry b. -/
theorem len0 (b : Fin 16) (l : Fin 1024) : val_main_v4 (F := Ideal) x0 (ix2 b l) = len (rowOf x0 b l) := by
  rw [val_main_v4_apply, val_main_v3_apply, val_main_v1_apply, val_main_v2_apply, val_main_cst_apply, val_main_cst_0_apply]
  simp only [val_main_v0_apply, idx_v1, Ideal.hostUnary_sqrt_def, Ideal.maximumf_def, Ideal.mulf_def, Ideal.ofBits_def,
    Ideal.ofBits_zero_f32, zero_add]
  rfl

/-- The second length array at (b, j) is the clamped length of row j of the second sentence in batch entry b. -/
theorem len1 (b : Fin 16) (j : Fin 1024) : val_main_v9 (F := Ideal) x1 (ix2 b j) = len (rowOf x1 b j) := by
  rw [val_main_v9_apply, val_main_v8_apply, val_main_v6_apply, val_main_v7_apply, val_main_cst_1_apply, val_main_cst_2_apply]
  simp only [val_main_v5_apply, idx_v6, Ideal.hostUnary_sqrt_def, Ideal.maximumf_def, Ideal.mulf_def, Ideal.ofBits_def,
    Ideal.ofBits_zero_f32, zero_add]
  rfl

/-- The cosine array at (b, l, j) is the contract-then-normalise cosine of row l against row j. -/
theorem cosine (b : Fin 16) (l j : Fin 1024) :
    val_main_v16 (F := Ideal) x0 x1 (ix3 b l j) = cosJoint (rowOf x0 b l) (rowsOf x1 b) j := by
  rw [val_main_v16_apply, val_main_v13_apply, val_main_v10_apply, val_main_v12_apply, val_main_v11_apply,
    val_main_v15_apply, val_main_v14_apply, idx_v11_v12, idx_v14_v15, len0, len1]
  simp only [lidx_v10, ridx_v10, Ideal.hostDivf_def]
  rfl

/-- The mean attentive vector at (b, l, d). -/
theorem attentive (b : Fin 16) (l : Fin 1024) (d : Fin 256) :
    val_main_v23 (F := Ideal) x0 x1 (ix3 b l d) = attend (cosJoint (rowOf x0 b l) (rowsOf x1 b)) (rowsOf x1 b) d := by
  rw [val_main_v23_apply, val_main_v17_apply, val_main_v22_apply, val_main_v21_apply, val_main_v19_apply, val_main_v20_apply,
    val_main_v18_apply, val_main_cst_3_apply, val_main_cst_4_apply, idx_v19_v22]
  simp only [lidx_v17, ridx_v17, idx_v18, cosine, Ideal.hostDivf_def, Ideal.addf_def, Ideal.ofBits_def,
    Ideal.ofBits_zero_f32, zero_add]
  rfl

/-- The result at (b, l, p) is the score of row l against its mean attentive vector under perspective row p. -/
theorem result (b : Fin 16) (l : Fin 1024) (p : Fin 20) :
    val_main_v38 (F := Ideal) x0 x1 k (ix3 b l p) = entry cosJoint (rowOf x0 b l) (rowsOf x1 b) (perspOf k p) := by
  rw [val_main_v38_apply, val_main_v37_apply, val_main_v36_apply, val_main_v35_apply, val_main_v31_apply, val_main_v30_apply,
    val_main_v26_apply, val_main_v28_apply, val_main_v33_apply, val_main_v29_apply, val_main_v34_apply,
    val_main_cst_5_apply, val_main_cst_6_apply]
  simp only [val_main_v25_apply, val_main_v24_apply, val_main_v27_apply, val_main_v32_apply, lidx_v26, ridx_v26, lidx_v28,
    ridx_v28, lidx_v33, ridx_v33, attentive, Ideal.hostDivf_def, Ideal.hostUnary_sqrt_def, Ideal.maximumf_def,
    Ideal.mulf_def, Ideal.ofBits_def]
  rfl

/-- The reference's whole result is the contract-then-normalise arrangement of the specification. -/
theorem whole : val_main_v38 (F := Ideal) x0 x1 k = wholeJoint x0 x1 k := by
  funext i
  obtain ⟨b, l, p, rfl⟩ : ∃ (b : Fin 16) (l : Fin 1024) (p : Fin 20), i = ix3 b l p := ⟨i 0, i 1, i 2, eq_ix3 i⟩
  exact result x0 x1 k b l p

end Cert.RefRows

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.TileRows.lean ====
/-
  What the kernel body computes for one tile, read at one entry.

  The body is handed a tile a of 256 rows of the first sentence (shape [1, 256, 256]), the block w of all 1024 rows of
  the second sentence of the same batch entry (shape [1, 1024, 256]) and the perspective array κ (shape [20, 256]).
  Dropping the unit axis, it forms the column of clamped row lengths of a and of w, divides every row by its length,
  and multiplies the normalised tile by the transposed normalised block: entry (r, j) of that product is

      ∑_d (a_{r,d} / |a_r|) · (w_{j,d} / |w_j|),

  the normalise-then-contract cosine of row r against row j. The product of the cosines with w, divided row by row by
  the cosines' sum plus ε, is the mean attentive vector; and the three products with the transposed squared
  perspective array, combined by two clamped square roots and two divisions, give the score. A change of number
  format is the identity on extended reals, a product into the all-zero array is the plain sum of products, and a
  sum along the lanes is the plain sum: no law of the extended reals is used, the sums are only re-indexed. So entry
  (r, p) of the tile's result is the row specification, in its normalise-then-contract arrangement, of row r of a,
  the rows of w and row p of κ.
-/
import proofs.«113823_j51187420234470_1_alg».proof.Proof.Gen.KernelIdeal.Skeleton
import proofs.«113823_j51187420234470_1_alg».proof.Proof.RowSpec
import proofs.«113823_j51187420234470_1_alg».proof.Proof.LibDotPlain
import Idealize.ShloMosaic.Lib.ValueLayout
import Idealize.ShloMosaic.Lib.Pipeline.Value

noncomputable section

open scoped BigOperators

namespace Cert.TileRows

open Cert.KernelIdeal Cert.KernelIdeal.Gen Idealize.ShloMosaic Idealize.ShloMosaic.ValueIdx Cert.RowSpec

/-! ## Three layout steps read at an index, and the lane sum -/

/-- A vector of length n cast to a column [n, 1] reads, at (r, u), the vector at r. -/
theorem colCast_apply {α : Type} {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column [n, 1] broadcast along the lanes to [n, m] reads, at (r, c), the column at (r, 0). -/
theorem colBroadcast_apply {α : Type} {n m : ℕ} (v : (⟨2, ![n, 1]⟩ : Shape).Idx → α)
    (h : (⟨2, ![n, 1]⟩ : Shape).Broadcasts ⟨2, ![n, m]⟩) (r : Fin n) (c : Fin m) :
    broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else c.val
    rw [if_pos rfl]

/-- The elementwise square root, read at an index. -/
theorem sqrt_apply {s : Shape} {φ : FTy} (v : FVec Ideal s φ) (i : s.Idx) : sqrt v i = Ideal.sqrt (v i) := rfl

/-- The sum of an [n, m] array along its lanes, started from zero, reads at r the sum over q of the array at (r, q). -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ q : Fin m, src (ix2 r q) :=
  (Ideal.multiReduction_add_single src 0x00000000#32 h hφ hacc (ix1 r)).trans
    (Finset.sum_congr rfl fun q _ => congrArg src (funext fun a => Fin.ext (by
      match a with
      | ⟨0, _⟩ => rfl
      | ⟨1, _⟩ => rfl)))

/-! ## The tile's stages -/

variable (a : Vec Ideal S1x256x256 .f32) (w : Vec Ideal S1x1024x256 .f32) (κ : Vec Ideal S20x256 .f32)

/-- Row r of the tile. -/
abbrev tileRow (r : Fin 256) : Fin 256 → EReal := fun d => a (ix3 (0 : Fin 1) r d)
/-- The rows of the second sentence's block. -/
abbrev blockRows : Fin 1024 → Fin 256 → EReal := fun j d => w (ix3 (0 : Fin 1) j d)
/-- Row p of the perspective array. -/
abbrev perspRow (p : Fin 20) : Fin 256 → EReal := fun d => κ (ix2 p d)

/-- The tile without its unit axis, at (r, d), is the tile at (0, r, d). -/
theorem tile_apply (r d : Fin 256) : k0_pay2 a (ix2 r d) = a (ix3 (0 : Fin 1) r d) :=
  shapeCast_1ab_ab_apply a _ r d

/-- The second sentence's block without its unit axis. -/
def block2 : FVec Ideal S1024x256 .f32 := shapeCast S1024x256 w shapeCasts_S1x1024x256_S1024x256

theorem block2_apply (j : Fin 1024) (d : Fin 256) : block2 w (ix2 j d) = w (ix3 (0 : Fin 1) j d) :=
  shapeCast_1ab_ab_apply w _ j d

/-- The column of clamped lengths of the tile's rows. -/
def lenCol1 : FVec Ideal S256x1 .f32 :=
  sqrt (maximumf (shapeCast S256x1 (multiReduction .add [1] S256 (mulf (k0_pay2 a) (k0_pay2 a)) 0x00000000#32
    reduces_S256x256_S256 (.inl rfl) rfl) shapeCasts_S256_S256x1) (broadcast S256x1 (Scalar.ofBits .f32 0x33D6BF95#32)))

/-- The column of clamped lengths of the block's rows. -/
def lenCol2 : FVec Ideal S1024x1 .f32 :=
  sqrt (maximumf (shapeCast S1024x1 (multiReduction .add [1] S1024 (mulf (block2 w) (block2 w)) 0x00000000#32
    reduces_S1024x256_S1024 (.inl rfl) rfl) shapeCasts_S1024_S1024x1) (broadcast S1024x1 (Scalar.ofBits .f32 0x33D6BF95#32)))

theorem lenCol1_apply (r : Fin 256) (u : Fin 1) : lenCol1 a (ix2 r u) = len (tileRow a r) := by
  have e : shapeCast S256x1 (multiReduction .add [1] S256 (mulf (k0_pay2 a) (k0_pay2 a)) 0x00000000#32
      reduces_S256x256_S256 (.inl rfl) rfl) shapeCasts_S256_S256x1 (ix2 r u) = ∑ d, tileRow a r d * tileRow a r d :=
    (colCast_apply _ _ r u).trans ((rowSum_apply _ _ _ _ r).trans
      (Finset.sum_congr rfl fun d _ => by rw [mulf_apply, tile_apply]))
  exact congrArg (fun z => Ideal.sqrt (max z floor)) e

theorem lenCol2_apply (j : Fin 1024) (u : Fin 1) : lenCol2 w (ix2 j u) = len (blockRows w j) := by
  have e : shapeCast S1024x1 (multiReduction .add [1] S1024 (mulf (block2 w) (block2 w)) 0x00000000#32
      reduces_S1024x256_S1024 (.inl rfl) rfl) shapeCasts_S1024_S1024x1 (ix2 j u) = ∑ d, blockRows w j d * blockRows w j d :=
    (colCast_apply _ _ j u).trans ((rowSum_apply _ _ _ _ j).trans
      (Finset.sum_congr rfl fun d _ => by rw [mulf_apply, block2_apply]))
  exact congrArg (fun z => Ideal.sqrt (max z floor)) e

/-- The tile's cosines: the normalised tile times the transposed normalised block. -/
def cosTile : FVec Ideal S256x1024 .f32 :=
  matmul dot_S256x256_S256x1024_S256x1024_1_0_0_1_n_n none
    (truncf .bf16 (divf (k0_pay2 a) (broadcastTo S256x256 (lenCol1 a) broadcasts_S256x1_S256x256)) bitsLt_bf16_f32)
    (transpose S256x1024 [1, 0]
      (truncf .bf16 (divf (block2 w) (broadcastTo S1024x256 (lenCol2 w) broadcasts_S1024x1_S1024x256)) bitsLt_bf16_f32)
      transposes_S1024x256_p1_0_S256x1024)
    (constant S256x1024 .f32 0x00000000#32)

/-- Entry (r, j) of the tile's cosines is the normalise-then-contract cosine of row r against row j. -/
theorem cosTile_apply (r : Fin 256) (j : Fin 1024) : cosTile a w (ix2 r j) = cosSplit (tileRow a r) (blockRows w) j := by
  refine (LibDotPlain.matmul_zero_plain 256 256 1024 none _ _ r j).trans (Finset.sum_congr rfl fun q _ => ?_)
  rw [truncf_apply, divf_apply, tile_apply, colBroadcast_apply, lenCol1_apply, transpose_ix2_apply, truncf_apply, divf_apply,
    block2_apply, colBroadcast_apply, lenCol2_apply]

/-- The mean-attentive-vector payload is the cosines times the block, over the cosines' row sums plus ε. -/
theorem attentive_eq : k0_pay3 a w =
    divf (matmul dot_S256x1024_S1024x256_S256x256_1_0_0_1_n_n none (truncf .bf16 (cosTile a w) bitsLt_bf16_f32)
        (truncf .bf16 (block2 w) bitsLt_bf16_f32) (constant S256x256 .f32 0x00000000#32))
      (broadcastTo S256x256 (addf (shapeCast S256x1 (multiReduction .add [1] S256 (cosTile a w) 0x00000000#32
        reduces_S256x1024_S256 (.inl rfl) rfl) shapeCasts_S256_S256x1) (broadcast S256x1 (Scalar.ofBits .f32 0x33D6BF95#32)))
        broadcasts_S256x1_S256x256) := rfl

/-- Entry (r, d) of the mean attentive vectors. -/
theorem attentive_apply (r d : Fin 256) :
    k0_pay3 a w (ix2 r d) = attend (cosSplit (tileRow a r) (blockRows w)) (blockRows w) d := by
  have hnum : matmul dot_S256x1024_S1024x256_S256x256_1_0_0_1_n_n none (truncf .bf16 (cosTile a w) bitsLt_bf16_f32)
      (truncf .bf16 (block2 w) bitsLt_bf16_f32) (constant S256x256 .f32 0x00000000#32) (ix2 r d)
      = ∑ j, cosSplit (tileRow a r) (blockRows w) j * blockRows w j d :=
    (LibDotPlain.matmul_zero_plain 256 1024 256 none _ _ r d).trans (Finset.sum_congr rfl fun j _ => by
      rw [truncf_apply, cosTile_apply, truncf_apply, block2_apply])
  have hden : broadcastTo S256x256 (addf (shapeCast S256x1 (multiReduction .add [1] S256 (cosTile a w) 0x00000000#32
        reduces_S256x1024_S256 (.inl rfl) rfl) shapeCasts_S256_S256x1) (broadcast S256x1 (Scalar.ofBits .f32 0x33D6BF95#32)))
        broadcasts_S256x1_S256x256 (ix2 r d) = (∑ j, cosSplit (tileRow a r) (blockRows w) j) + floor := by
    rw [colBroadcast_apply, addf_apply]
    refine congrArg (· + floor) ?_
    exact (colCast_apply _ _ r 0).trans ((rowSum_apply _ _ _ _ r).trans
      (Finset.sum_congr rfl fun j _ => cosTile_apply a w r j))
  rw [attentive_eq, divf_apply, hnum, hden]
  rfl

/-! ## The three products with the squared perspective array, and the score -/

/-- A [256, 256] array times the transposed squared perspective array, at (r, p): the sum over d of the array at
    (r, d) times the square of the perspective array at (p, d). -/
theorem perspProduct_apply (X : FVec Ideal S256x256 .bf16) (r : Fin 256) (p : Fin 20) :
    matmul dot_S256x256_S256x20_S256x20_1_0_0_1_n_n none X
        (transpose S256x20 [1, 0] (k0_pay4 κ) transposes_S20x256_p1_0_S256x20) (constant S256x20 .f32 0x00000000#32) (ix2 r p)
      = ∑ d, X (ix2 r d) * (perspRow κ p d * perspRow κ p d) :=
  (LibDotPlain.matmul_zero_plain 256 256 20 none _ _ r p).trans (Finset.sum_congr rfl fun d _ => by
    rw [transpose_ix2_apply]; rfl)

/-- The stored value: the score without its unit axis, put back under one. -/
theorem stored_eq : k0_pay1 (k0_pay4 κ) (k0_pay5 a w) (k0_pay6 a) (k0_pay7 a w) =
    shapeCast S1x256x20
      (divf (divf
          (matmul dot_S256x256_S256x20_S256x20_1_0_0_1_n_n none (k0_pay5 a w)
            (transpose S256x20 [1, 0] (k0_pay4 κ) transposes_S20x256_p1_0_S256x20) (constant S256x20 .f32 0x00000000#32))
          (sqrt (maximumf (matmul dot_S256x256_S256x20_S256x20_1_0_0_1_n_n none (k0_pay6 a)
            (transpose S256x20 [1, 0] (k0_pay4 κ) transposes_S20x256_p1_0_S256x20) (constant S256x20 .f32 0x00000000#32))
            (broadcast S256x20 (Scalar.ofBits .f32 0x33D6BF95#32)))))
        (sqrt (maximumf (matmul dot_S256x256_S256x20_S256x20_1_0_0_1_n_n none (k0_pay7 a w)
            (transpose S256x20 [1, 0] (k0_pay4 κ) transposes_S20x256_p1_0_S256x20) (constant S256x20 .f32 0x00000000#32))
          (broadcast S256x20 (Scalar.ofBits .f32 0x33D6BF95#32)))))
      shapeCasts_S256x20_S1x256x20 := rfl

theorem pay5_apply (r d : Fin 256) : k0_pay5 a w (ix2 r d) = tileRow a r d * k0_pay3 a w (ix2 r d) :=
  congrArg (· * k0_pay3 a w (ix2 r d)) (tile_apply a r d)
theorem pay6_apply (r d : Fin 256) : k0_pay6 a (ix2 r d) = tileRow a r d * tileRow a r d :=
  congrArg₂ (· * ·) (tile_apply a r d) (tile_apply a r d)
theorem pay7_apply (r d : Fin 256) : k0_pay7 a w (ix2 r d) = k0_pay3 a w (ix2 r d) * k0_pay3 a w (ix2 r d) := rfl

/-- Entry (u, r, p) of what the body stores is the row specification, normalise-then-contract arrangement, of row r
    of the tile, the rows of the block and row p of the perspective array. -/
theorem stored_apply (u : Fin 1) (r : Fin 256) (p : Fin 20) :
    k0_pay1 (k0_pay4 κ) (k0_pay5 a w) (k0_pay6 a) (k0_pay7 a w) (ix3 u r p)
      = entry cosSplit (tileRow a r) (blockRows w) (perspRow κ p) := by
  rw [stored_eq, shapeCast_ab_1ab_apply, divf_apply, divf_apply, sqrt_apply, sqrt_apply, maximumf_apply, maximumf_apply,
    broadcast_apply, perspProduct_apply, perspProduct_apply, perspProduct_apply]
  simp only [pay5_apply, pay6_apply, pay7_apply, attentive_apply]
  rfl

end Cert.TileRows

end
-- ==== Proof.KernelWhole.lean ====
/-
  From the tiles to the whole result array.

  The grid has 16 × 4 points; at point (b, i) the body sees rows 256·i … 256·i + 255 of batch entry b of the first
  sentence, all 1024 rows of batch entry b of the second sentence, the whole perspective array, and writes rows
  256·i … 256·i + 255 of batch entry b of the result. An entry (b, 256·i + r, p) of the result therefore depends on
  row 256·i + r of the first sentence in batch entry b (row r of the tile), on the rows of the second sentence in
  batch entry b (the rows of the block) and on row p of the perspective array: what the point writes back is the
  restriction to its block of ONE function of the three argument arrays, the normalise-then-contract arrangement of
  the row specification. The 64 blocks tile the result array (the block holding row l of batch entry b is the one at
  (b, l / 256)), so after the run the array is that function everywhere.
-/
import proofs.«113823_j51187420234470_1_alg».proof.Proof.Gen.KernelIdeal.Value
import proofs.«113823_j51187420234470_1_alg».proof.Proof.TileRows

noncomputable section

namespace Cert.KernelWhole

open Cert.KernelIdeal Cert.KernelIdeal.Gen Idealize.ShloMosaic Idealize.ShloMosaic.TcCoe Idealize.SL.Sem
open Idealize.ShloMosaic.ValueIdx Cert.RowSpec Cert.TileRows
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result array as one function of the argument arrays as the region finds them. -/
abbrev whole (c : Dev nD) : S16x1024x20.Idx → EReal :=
  wholeSplit (V m c main_arg0) (V m c main_arg1) (V m c main_arg2)

/-- The three input blocks at a point, typed by their literal shapes. -/
abbrev tileAt (c : Dev nD) (t : Fin cfg0.N) : Vec Ideal S1x256x256 .f32 := iblk m c 0 t
abbrev blockAt (c : Dev nD) (t : Fin cfg0.N) : Vec Ideal S1x1024x256 .f32 := iblk m c 1 t
abbrev perspAt (c : Dev nD) (t : Fin cfg0.N) : Vec Ideal S20x256 .f32 := iblk m c 2 t

/-- What the body stores, at any index of the tile's result. -/
theorem stored_at (a : Vec Ideal S1x256x256 .f32) (w : Vec Ideal S1x1024x256 .f32) (κ : Vec Ideal S20x256 .f32)
    (y : S1x256x20.Idx) :
    k0_pay1 (k0_pay4 κ) (k0_pay5 a w) (k0_pay6 a) (k0_pay7 a w) y
      = entry cosSplit (tileRow a (y 1)) (blockRows w) (perspRow κ (y 2)) :=
  (congrArg _ (eq_ix3 y)).trans (stored_apply a w κ (y 0) (y 1) (y 2))

/-- The block indices at a grid point, decided over the 64 points: the first sentence's window moves with the
    result's on the batch and row-tile axes, the second sentence's on the batch axis only, the perspective array's
    not at all; the result's batch index is below 16 and its row-tile index below 4. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) ≤ 15 ∧ win0_3.index t (1 : Fin 3) ≤ 3 ∧ win0_3.index t (2 : Fin 3) = 0 :=
  (by decide +kernel : ∀ t : Fin grid0.N, _)

/-- Every (batch entry, row tile) pair is some point's block index. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- What point t writes back is block t of the one function of the argument arrays. -/
theorem flushed_eq (c : Dev nD) (t : Fin cfg0.N) :
    (dats m 0 c).flushed 3 t = ((cfg0.win 3).blk t).view.read (Elt Ideal) (whole m c) := by
  rw [Value.flushed3]
  unfold out0_3
  rw [View.canon_unit_zero zeros3]
  simp only [View.ld_unit_zero (S := S1x256x256) zeros3, View.ld_unit_zero (S := S1x1024x256) zeros3,
    View.ld_unit_zero (S := S20x256) zeros2]
  obtain ⟨e00, e01, e02, e10, e11, e12, e20, e21, -, -, e32⟩ := idx_facts t
  funext y
  have hy0 : (y 0).val < 1 := (y 0).isLt
  show k0_pay1 (k0_pay4 (perspAt m c t)) (k0_pay5 (tileAt m c t) (blockAt m c t)) (k0_pay6 (tileAt m c t))
      (k0_pay7 (tileAt m c t) (blockAt m c t)) ((cfg0.win 3).xinj (grid0.coords t) y)
    = whole m c (((cfg0.win 3).blk t).view.emb y)
  rw [stored_at]
  have h1 : tileRow (tileAt m c t) (((cfg0.win 3).xinj (grid0.coords t) y) 1)
      = rowOf (V m c main_arg0) ((((cfg0.win 3).blk t).view.emb y) 0) ((((cfg0.win 3).blk t).view.emb y) 1) := by
    funext d
    show V m c main_arg0 (((cfg0.win 0).blk t).view.emb (ix3 (0 : Fin 1) (((cfg0.win 3).xinj (grid0.coords t) y) 1) d))
      = V m c main_arg0 (ix3 ((((cfg0.win 3).blk t).view.emb y) 0) ((((cfg0.win 3).blk t).view.emb y) 1) d)
    refine congrArg (V m c main_arg0) (funext fun ax => Fin.ext ?_)
    match ax with
    | ⟨0, _⟩ => show win0_0.index t (0 : Fin 3) * 1 + 1 * 0 = win0_3.index t (0 : Fin 3) * 1 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 256 + 1 * d.val = d.val; omega
  have h2 : blockRows (blockAt m c t) = rowsOf (V m c main_arg1) ((((cfg0.win 3).blk t).view.emb y) 0) := by
    funext j d
    show V m c main_arg1 (((cfg0.win 1).blk t).view.emb (ix3 (0 : Fin 1) j d))
      = V m c main_arg1 (ix3 ((((cfg0.win 3).blk t).view.emb y) 0) j d)
    refine congrArg (V m c main_arg1) (funext fun ax => Fin.ext ?_)
    match ax with
    | ⟨0, _⟩ => show win0_1.index t (0 : Fin 3) * 1 + 1 * 0 = win0_3.index t (0 : Fin 3) * 1 + 1 * (y 0).val; omega
    | ⟨1, _⟩ => show win0_1.index t (1 : Fin 3) * 1024 + 1 * j.val = j.val; omega
    | ⟨2, _⟩ => show win0_1.index t (2 : Fin 3) * 256 + 1 * d.val = d.val; omega
  have h3 : perspRow (perspAt m c t) (((cfg0.win 3).xinj (grid0.coords t) y) 2)
      = perspOf (V m c main_arg2) ((((cfg0.win 3).blk t).view.emb y) 2) := by
    funext d
    show V m c main_arg2 (((cfg0.win 2).blk t).view.emb (ix2 (((cfg0.win 3).xinj (grid0.coords t) y) 2) d))
      = V m c main_arg2 (ix2 ((((cfg0.win 3).blk t).view.emb y) 2) d)
    refine congrArg (V m c main_arg2) (funext fun ax => Fin.ext ?_)
    match ax with
    | ⟨0, _⟩ => show win0_2.index t (0 : Fin 2) * 20 + 1 * (y 2).val = win0_3.index t (2 : Fin 3) * 20 + 1 * (y 2).val; omega
    | ⟨1, _⟩ => show win0_2.index t (1 : Fin 2) * 256 + 1 * d.val = d.val; omega
  rw [h1, h2, h3]
  rfl

/-- An index of the result array is in point t's block iff each coordinate is in the block's range on its axis. -/
theorem mem_blk (t : Fin cfg0.N) (i : S16x1024x20.Idx) :
    i ∈ ((cfg0.win 3).blk t).view.set ↔ ∀ a : Fin 3, win0_3.index t a * S1x256x20.size a ≤ (i a).val
      ∧ (i a).val < win0_3.index t a * S1x256x20.size a + S1x256x20.size a := by
  show i ∈ ((View.whole main_v0).slice (win0_3.rect t)).set ↔ _
  rw [View.set_slice_whole, Rect.mem_set_unit]
  exact Iff.rfl

/-- Every index of the result array lies in some point's block: row l of batch entry b in the block at (b, l / 256). -/
theorem cover (i : S16x1024x20.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 20 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 20 ≤ (i 2).val ∧ (i 2).val < win0_3.index t (2 : Fin 3) * 20 + 20; omega

/-- After the run the result array is the one function of the argument arrays. -/
theorem final (c : Dev nD) : (dats m 0 c).arrAt 3 cfg0.N = whole m c :=
  (dats m 0 c).arrAt_eq_of_cover 3 (whole m c) (fun t _ => flushed_eq m c t) cover

/-- The kernel's run: every weakly fair execution ends with the result array at the normalise-then-contract
    arrangement of the row specification of the argument arrays, and the argument arrays unchanged. -/
theorem run : θ_run defs (onTc (τ := τ) (main (F := Ideal))) ⟨m, fun _ => 0, ρ⟩ fun r => ∀ c : Dev nD,
      r.2.mem ((c : Thread nD τ).loc main_v0)
        = wholeSplit (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelWhole

end
-- ==== Proof.FiniteArgs.lean ====
/-
  What the precondition says of the sentence arrays: no entry is infinite.

  The precondition is the conjunction of three tests, one per argument array: every entry x satisfies |x| < +∞, where
  |x| is max x (−x) and +∞ is the single-precision pattern with all exponent bits set and no fraction bit. On the
  extended reals max x (−x) < ⊤ excludes x = ⊤ (then the maximum is ⊤) and x = ⊥ (then −x = ⊤). A conjunction of
  one-bit words is 1 only if each is, and a reduction by "and" over all axes is 1 only if every entry is.
-/
import proofs.«113823_j51187420234470_1_alg».proof.Proof.Gen.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Cert.Pre_finite_inputs

/-- The rank-0 shape has one index. -/
instance : Subsingleton S_.Idx := ⟨fun _ _ => funext fun d => d.elim0⟩

/-- The pattern 0x7F800000 denotes +∞. -/
theorem top_pattern : Ideal.ofBits .f32 0x7F800000#32 = ⊤ := by simp [Ideal.ofBits, Ideal.ieee]

/-- An extended real whose absolute value tests below +∞ is neither infinity. -/
theorem finite_of_test {x : EReal}
    (h : Ideal.cmp .olt (max x (-x)) (Ideal.ofBits .f32 0x7F800000#32) = 1#1) : x ≠ ⊤ ∧ x ≠ ⊥ := by
  rw [top_pattern] at h
  have hlt : max x (-x) < ⊤ := by
    by_contra hn
    simp [Ideal.cmp, hn] at h
  constructor
  · rintro rfl; simp at hlt
  · rintro rfl; simp at hlt

/-- Under the precondition no entry of the first or of the second argument array is infinite. -/
theorem of_pre (x0 x1 : FVec Ideal S16x1024x256 .f32) (x2 : FVec Ideal S20x256 .f32)
    (h : fn (F := Ideal) x0 x1 x2 = fun _ => 1#1) :
    (∀ i, x0 i ≠ ⊤ ∧ x0 i ≠ ⊥) ∧ (∀ i, x1 i ≠ ⊤ ∧ x1 i ≠ ⊥) := by
  have h0 := congrFun h ValueIdx.ix0
  dsimp only [fn] at h0
  obtain ⟨h01, -⟩ := IntOp.andi_eq_one.1 h0
  obtain ⟨ha, hb⟩ := IntOp.andi_eq_one.1 h01
  exact ⟨fun i => finite_of_test (Host.reduce_andi_all _ _ _ _ _ ha i),
    fun i => finite_of_test (Host.reduce_andi_all _ _ _ _ _ hb i)⟩

end Cert.FiniteArgs

end
-- ==== Proof.lean ====
/-
  The perspective-match kernel against its reference: both compute, for every batch entry b, row l of the first
  sentence and perspective row p, the score of that row against its mean attentive vector.

  The two programs differ in one place only. The kernel divides every row of both sentences by its clamped length
  and then contracts, so its cosine of row l against row j is ∑_d (s1_d / |s1|) · (s2_d / |s2|); the reference
  contracts first and divides the contraction by the two lengths, (∑_d s1_d · s2_d) / |s1| / |s2|. Everything
  after the cosines (the mean attentive vector, the three contractions with the squared perspective array, the two
  clamped square roots, the two divisions) is the same composition of the same operations, with the same
  constant ε, in both. Tiling, the order of the sums, products into an all-zero array against plain products, and
  changes of number format make no difference on the extended reals.

  The two cosines agree when the entries of both sentences are real numbers: then the lengths are reals, at least
  sqrt ε > 0, division by them is multiplication by real reciprocals, and these leave the finite sum by
  distributivity. That the entries are real is what the precondition states (every |x| is below +∞). So the kernel's
  result array (the normalise-then-contract arrangement of the row specification, read off its 64 tiles) and the
  reference's (the contract-then-normalise arrangement, read off its stages) are equal, index by index.

  The kernel was printed without any rewrite, so it is its own idealization and that claim is trivial; the three
  programs run to completion with their arguments unchanged by their frame and run theorems.
-/
import proofs.«113823_j51187420234470_1_alg».proof.Defs
import proofs.«113823_j51187420234470_1_alg».proof.Proof.Gen.Kernel
import proofs.«113823_j51187420234470_1_alg».proof.Proof.Gen.Kernel.Skeleton
import proofs.«113823_j51187420234470_1_alg».proof.Proof.Gen.Kernel.Launch
import proofs.«113823_j51187420234470_1_alg».proof.Proof.Gen.Kernel.Points
import proofs.«113823_j51187420234470_1_alg».proof.Proof.Gen.Kernel.Frame
import proofs.«113823_j51187420234470_1_alg».proof.Proof.Gen.KernelIdeal
import proofs.«113823_j51187420234470_1_alg».proof.Proof.Gen.KernelIdeal.Skeleton
import proofs.«113823_j51187420234470_1_alg».proof.Proof.Gen.KernelIdeal.Launch
import proofs.«113823_j51187420234470_1_alg».proof.Proof.Gen.KernelIdeal.Points
import proofs.«113823_j51187420234470_1_alg».proof.Proof.Gen.KernelIdeal.Frame
import proofs.«113823_j51187420234470_1_alg».proof.Proof.Gen.ReferenceIdeal
import proofs.«113823_j51187420234470_1_alg».proof.Proof.Gen.Pre_finite_inputs
import proofs.«113823_j51187420234470_1_alg».proof.Proof.Gen.KernelIdeal.Value
import proofs.«113823_j51187420234470_1_alg».proof.Proof.Gen.ReferenceIdeal.Run
import proofs.«113823_j51187420234470_1_alg».proof.Proof.Gen.ReferenceIdeal.Read
import proofs.«113823_j51187420234470_1_alg».proof.Proof.RowSpec
import proofs.«113823_j51187420234470_1_alg».proof.Proof.RefRows
import proofs.«113823_j51187420234470_1_alg».proof.Proof.KernelWhole
import proofs.«113823_j51187420234470_1_alg».proof.Proof.FiniteArgs
import Idealize.ShloMosaic.Adequacy
import Idealize.ShloMosaic.Init

noncomputable section

namespace Cert.Proof

open Idealize.ShloMosaic Idealize.ShloMosaic.TcCoe Idealize.SL.Sem

/-- The kernel as printed runs to completion and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the arguments both programs end with the same result array: the kernel's is the
    normalise-then-contract arrangement of the row specification, the reference's the contract-then-normalise one,
    and under the precondition no entry of either sentence is infinite, so the two arrangements are equal. -/
theorem algebraic : Cert.algebraic_KernelIdeal_ReferenceIdeal := by
  intro m ρ m' ρ' hpre hagree
  refine ⟨fun c => Cert.RowSpec.wholeSplit (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelWhole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.FiniteArgs.of_pre _ _ _ (hpre c)
  rw [Cert.ReferenceIdeal.Read.val_main_v38_eq, Cert.RefRows.whole, (hagree c).1, (hagree c).2.1, (hagree c).2.2]
  exact (Cert.RowSpec.wholeSplit_eq_wholeJoint _ _ _ h0 h1).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
